-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x512 : Shape := ⟨2, ![65536, 512]⟩
abbrev S128x512 : Shape := ⟨2, ![128, 512]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S65536x128 .f32) (main_arg1 : FVec F S65536x128 .f32) (main_arg2 : FVec F S65536x512 .f32) (main_arg3 : FVec F S128x512 .f32) (main_arg4 : IVec S65536x128 32) (main_arg5 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_v13 main_v16
-- ==== Kernel.lean ====
abbrev S65536x128 : Shape := ⟨2, ![65536, 128]⟩
abbrev S65536x512 : Shape := ⟨2, ![65536, 512]⟩
abbrev S128x512 : Shape := ⟨2, ![128, 512]⟩
abbrev S128 : Shape := ⟨1, ![128]⟩
abbrev S512x128 : Shape := ⟨2, ![512, 128]⟩
abbrev S1x128 : Shape := ⟨2, ![1, 128]⟩
abbrev S1x1 : Shape := ⟨2, ![1, 1]⟩
abbrev S2048x512 : Shape := ⟨2, ![2048, 512]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x512, .f32⟩
  | .hbm, ⟨3, _⟩ => ⟨S128x512, .f32⟩
  | .hbm, ⟨4, _⟩ => ⟨S65536x128, .i32⟩
  | .hbm, ⟨5, _⟩ => ⟨S128, .f32⟩
  | .hbm, ⟨6, _⟩ => ⟨S512x128, .f32⟩
  | .hbm, ⟨7, _⟩ => ⟨S1x128, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x128, .i32⟩
  | .local _ .vmem, ⟨3, _⟩ => ⟨S2048x128, .i32⟩
  | .local _ .vmem, ⟨4, _⟩ => ⟨S512x128, .f32⟩
  | .local _ .vmem, ⟨5, _⟩ => ⟨S1x128, .f32⟩
  | .local _ .vmem, ⟨6, _⟩ => ⟨S1x1, .f32⟩
  | .local _ .vmem, ⟨7, _⟩ => ⟨S1x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v50 : BitVec 1 := Scalar.cmpi .eq arg0 c31_i32
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S128x512_S512x128_1_0 : S128x512.Transposes [1, 0] S512x128
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S2048x128_S2048 : S2048x128.Reduces [1] S2048
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x1_S1 : S2048x1.Reduces [0] S1
  shapeCasts_S1_S1x1 : S1.ShapeCasts S1x1
  shapeCasts_S1x1_S_ : S1x1.ShapeCasts S_
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .i32 = 32 ∨ (Rect.block (s := S65536x128) S2048x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S65536x128 : Shape := ⟨2, ![65536, 128]⟩
abbrev S65536x512 : Shape := ⟨2, ![65536, 512]⟩
abbrev S128x512 : Shape := ⟨2, ![128, 512]⟩
abbrev S128 : Shape := ⟨1, ![128]⟩
abbrev S_ : Shape := ⟨0, ![]⟩
abbrev S65536 : Shape := ⟨1, ![65536]⟩
abbrev S65536x1 : Shape := ⟨2, ![65536, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x512, .f32⟩
  | .hbm, ⟨3, _⟩ => ⟨S128x512, .f32⟩
  | .hbm, ⟨4, _⟩ => ⟨S65536x128, .i32⟩
  | .hbm, ⟨5, _⟩ => ⟨S128, .f32⟩
  | .hbm, ⟨6, _⟩ => ⟨S65536x512, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x512, .f32⟩
  | .hbm, ⟨15, _⟩ => ⟨S65536x512, .f32⟩
  | .hbm, ⟨16, _⟩ => ⟨S65536x128, .f32⟩
  | .hbm, ⟨17, _⟩ => ⟨S_, .f32⟩
  | .hbm, ⟨18, _⟩ => ⟨S65536x128, .f32⟩
  | .hbm, ⟨19, _⟩ => ⟨S65536x128, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S65536x128, .f32⟩
  | .hbm, ⟨24, _⟩ => ⟨S65536x128, .f32⟩
  | .hbm, ⟨25, _⟩ => ⟨S65536x128, .f32⟩
  | .hbm, ⟨26, _⟩ => ⟨S1x128, .f32⟩
  | .hbm, ⟨27, _⟩ => ⟨S65536x128, .f32⟩
  | .hbm, ⟨28, _⟩ => ⟨S65536x128, .f32⟩
  | .hbm, ⟨29, _⟩ => ⟨S65536x128, .f32⟩
  | .hbm, ⟨30, _⟩ => ⟨S_, .f32⟩
  | .hbm, ⟨31, _⟩ => ⟨S65536x128, .f32⟩
  | .hbm, ⟨32, _⟩ => ⟨S65536x128, .f32⟩
  | .hbm, ⟨33, _⟩ => ⟨S65536x128, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S65536x1, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S_, .f32⟩
  | .hbm, ⟨42, _⟩ => ⟨S65536, .f32⟩
  | .hbm, ⟨43, _⟩ => ⟨S_, .f32⟩
  | .hbm, ⟨44, _⟩ => ⟨S65536, .f32⟩
  | .hbm, ⟨45, _⟩ => ⟨S65536, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S_S65536x128 : S_.BroadcastsInDim S65536x128 (![] : Fin 0 → Fin S65536x128.rank)
  reducesTo_S65536x128_S65536_d1 : S65536x128.ReducesTo [1] S65536
  bcast_S65536x1_S65536x128_0_1 : S65536x1.BroadcastsInDim S65536x128 (![0, 1] : Fin 2 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536 : S_.BroadcastsInDim S65536 (![] : Fin 0 → Fin S65536.rank)
  reducesTo_S65536_S_d0 : S65536.ReducesTo [0] S_
  dot_S65536x512_S128x512_S65536x128_1_1_0_0_n_n_wf : DotDims.WF S65536x512 S128x512 S65536x128 [1] [1] [0] [0] [] []

variable [Facts₀]

def dot_S65536x512_S128x512_S65536x128_1_1_0_0_n_n : DotDims S65536x512 S128x512 S65536x128 where
  lhsContracting := [1]
  rhsContracting := [1]
  lhsNonContracting := [0]
  rhsNonContracting := [0]
  lhsBatch := []
  rhsBatch := []
  wf := dot_S65536x512_S128x512_S65536x128_1_1_0_0_n_n_wf

class Facts : Prop extends Facts₀ where

variable [Facts]
-- ==== Proof.KernelIdealPieces.lean ====
/-
  What one grid point leaves behind, as values.

  The body keeps a running sum in a one-word scratch. At the first point it stores zero there, reads it back and adds the
  block's partial sum; at every later point it adds the block's partial sum to what the point before left; at the last
  point it also stores one times the running sum into the output block.  Here each of these is read off the stores the
  run found: the scratch after a point is `acc + partial`, with `acc` zero at the first point, and the output after the
  last point is `1 · (acc + partial)`.
-/
import proofs.«180132_j89678917140921_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz : (![0, 0] : Fin 2 → Nat) = fun _ => 0 := funext fun a => by fin_cases a <;> rfl

/-- The block's partial sum added to an accumulator `acc`: the payload of the scratch's one store. -/
abbrev step (x0 : Vec F S2048x512 .f32) (x1 : Vec F S2048x128 .i32) (x2 : Vec F S512x128 .f32) (x3 : Vec F S1x128 .f32)
    (acc : Vec F S1x1 .f32) : Vec F S1x1 .f32 := k0_pay1 (k0_pay4 x0 x2 x1 x3) acc

/-- FIRST POINT: the scratch is reset to zero, read back, and the block's partial sum added. -/
theorem scratch_first (c : Dev nD) (i : grid0.Coords) (arg1 : Memref sig .tc .vmem S2048x512 .f32) (harg1 : arg1.IsWhole) (arg2 : Memref sig .tc .vmem S2048x128 .i32) (harg2 : arg2.IsWhole) (arg3 : Memref sig .tc .vmem S512x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S2048x128 .i32) (x2 : Vec F S512x128 .f32) (x3 : Vec F S1x128 .f32) :
    sout0_A_0 c i arg1 harg1 arg2 harg2 arg3 harg3 arg4 harg4 arg5 harg5 arg6 harg6 hc0 hc1 x0 x1 x2 x3 = step x0 x1 x2 x3 (k0_pay3 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg6.read_unread, View.ld_unit_zero (S := S2048x512) hz, View.ld_unit_zero (S := S2048x128) hz, View.ld_unit_zero (S := S512x128) hz, View.ld_unit_zero (S := S1x128) hz, View.ld_unit_zero (S := S1x1) hz]

/-- A MIDDLE POINT: the block's partial sum added to what the point before left. -/
theorem scratch_mid (c : Dev nD) (i : grid0.Coords) (arg1 : Memref sig .tc .vmem S2048x512 .f32) (harg1 : arg1.IsWhole) (arg2 : Memref sig .tc .vmem S2048x128 .i32) (harg2 : arg2.IsWhole) (arg3 : Memref sig .tc .vmem S512x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S2048x128 .i32) (x2 : Vec F S512x128 .f32) (x3 : Vec F S1x128 .f32) (xs0 : Vec F S1x1 .f32) :
    sout0_B_0 c i arg1 harg1 arg2 harg2 arg3 harg3 arg4 harg4 arg5 harg5 arg6 harg6 hc0 hc1 x0 x1 x2 x3 xs0 = step x0 x1 x2 x3 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero hz]
  simp only [View.readAt_eq_ld, harg1.read_unread, harg2.read_unread, harg3.read_unread, harg4.read_unread, harg6.read_unread, View.ld_unit_zero (S := S2048x512) hz, View.ld_unit_zero (S := S2048x128) hz, View.ld_unit_zero (S := S512x128) hz, View.ld_unit_zero (S := S1x128) hz, View.ld_unit_zero (S := S1x1) hz]

/-- THE LAST POINT, the scratch: as at a middle point. -/
theorem scratch_last (c : Dev nD) (i : grid0.Coords) (arg1 : Memref sig .tc .vmem S2048x512 .f32) (harg1 : arg1.IsWhole) (arg2 : Memref sig .tc .vmem S2048x128 .i32) (harg2 : arg2.IsWhole) (arg3 : Memref sig .tc .vmem S512x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S2048x128 .i32) (x2 : Vec F S512x128 .f32) (x3 : Vec F S1x128 .f32) (xs0 : Vec F S1x1 .f32) :
    sout0_C_0 c i arg1 harg1 arg2 harg2 arg3 harg3 arg4 harg4 arg5 harg5 arg6 harg6 hc0 hc1 x0 x1 x2 x3 xs0 = step x0 x1 x2 x3 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread, View.ld_unit_zero (S := S2048x512) hz, View.ld_unit_zero (S := S2048x128) hz, View.ld_unit_zero (S := S512x128) hz, View.ld_unit_zero (S := S1x128) hz, View.ld_unit_zero (S := S1x1) hz]

/-- THE LAST POINT, the output block: one times the scratch as the point leaves it. -/
theorem out_last (c : Dev nD) (i : grid0.Coords) (arg1 : Memref sig .tc .vmem S2048x512 .f32) (harg1 : arg1.IsWhole) (arg2 : Memref sig .tc .vmem S2048x128 .i32) (harg2 : arg2.IsWhole) (arg3 : Memref sig .tc .vmem S512x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S2048x128 .i32) (x2 : Vec F S512x128 .f32) (x3 : Vec F S1x128 .f32) (xs0 : Vec F S1x1 .f32) :
    out0_C_4 c i arg1 harg1 arg2 harg2 arg3 harg3 arg4 harg4 arg5 harg5 arg6 harg6 hc0 hc1 x0 x1 x2 x3 xs0 = k0_pay2 (step x0 x1 x2 x3 xs0) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readCov_unit_zero (S := S1x1) _ hz, View.readAt_eq_ld, harg1.read_unread, harg2.read_unread, harg3.read_unread, harg4.read_unread, harg6.read_unread, View.ld_unit_zero (S := S2048x512) hz, View.ld_unit_zero (S := S2048x128) hz, View.ld_unit_zero (S := S512x128) hz, View.ld_unit_zero (S := S1x128) hz, View.ld_unit_zero (S := S1x1) hz]

end Cert.KernelIdeal.Pieces

end
-- ==== Proof.KernelRun.lean ====
/-
  The kernel's run, read as a value.

  The scratch after grid point `n` is the running sum `acc n`: zero plus the first block's partial sum, then each later
  block's partial sum added in turn (by induction on the point). Only the last point writes the one-entry output block
  back, with one times the running sum; that block is the whole output array. The two host operations after the call
  view the array as a scalar and divide it by the number of rows.
-/
import proofs.«180132_j89678917140921_1_alg».proof.Proof.KernelIdealPieces
import Idealize.ShloMosaic.Lib.Pipeline.Value
import Idealize.ShloMosaic.Lib.StableHlo.Run
import Idealize.ShloMosaic.Lib.Tactic

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Pieces

variable {F : FTy → Type} [FloatOps F] [Named F]
variable (m : (ℓ : Loc nD τ sig) → Buf (Elt F) ℓ) (ρ : Dev nD → PrngReg)

/-- The four input blocks at a grid point, at their literal types. -/
abbrev fblk (c : Dev nD) (t : Fin cfg0.N) : Vec F S2048x512 .f32 := iblk m c 0 t
abbrev lblk (c : Dev nD) (t : Fin cfg0.N) : Vec F S2048x128 .i32 := iblk m c 1 t
abbrev pblk (c : Dev nD) (t : Fin cfg0.N) : Vec F S512x128 .f32 := iblk m c 2 t
abbrev wblk (c : Dev nD) (t : Fin cfg0.N) : Vec F S1x128 .f32 := iblk m c 3 t

/-- The running sum after point `n`: the reset value and the first block's partial sum, then one block more per point. -/
def acc (c : Dev nD) : (n : ℕ) → n < cfg0.N → Vec F S1x1 .f32
  | 0, h => step (fblk m c ⟨0, h⟩) (lblk m c ⟨0, h⟩) (pblk m c ⟨0, h⟩) (wblk m c ⟨0, h⟩) (k0_pay3 (F := F))
  | n + 1, h => step (fblk m c ⟨n + 1, h⟩) (lblk m c ⟨n + 1, h⟩) (pblk m c ⟨n + 1, h⟩) (wblk m c ⟨n + 1, h⟩) (acc c n (Nat.lt_of_succ_lt h))

/-- The scratch after point `n` is the running sum: by induction on the point. -/
theorem scratch_eq (c : Dev nD) : ∀ (n : ℕ) (h : n < cfg0.N), (outsAt0 m c n h).2 = acc m c n h
  | 0, h => by
    rw [outsAt0_A m c ⟨0, h⟩ rfl (by show ¬(0 : ℕ) % 32 = 31; decide)]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show step _ _ _ _ (outsAt0 m c n _).2 = step _ _ _ _ (acc m c n _)
      rw [scratch_eq c n]
    · rw [outsAt0_B m c ⟨n + 1, h⟩ h0 h1]
      dsimp only
      refine (scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show step _ _ _ _ (outsAt0 m c n _).2 = step _ _ _ _ (acc m c n _)
      rw [scratch_eq c n]

/-- The last grid point. -/
abbrev lastPt : Fin cfg0.N := ⟨31, by rw [show cfg0.N = 32 from N_0]; decide⟩

/-- What the run leaves in the output array: one times the running sum after the last point. -/
abbrev result (c : Dev nD) : Buf (Elt F) ((c : Thread nD τ).loc main_v2) := k0_pay2 (acc m c 31 lastPt.isLt)

/-- The output block after the last point. -/
theorem out_eq (c : Dev nD) : (outsAt0 m c 31 lastPt.isLt).1 = result m c := by
  rw [outsAt0_C m c lastPt (by decide) rfl]
  dsimp only
  refine (out_last c (grid0.coords lastPt) (ms0_0 lastPt) (hs0_0 lastPt) (ms0_1 lastPt) (hs0_1 lastPt) (ms0_2 lastPt) (hs0_2 lastPt) (ms0_3 lastPt) (hs0_3 lastPt) (ms0_4 lastPt) (hs0_4 lastPt) scM0_0 (Memref.isWhole_whole _) _ _ (iblk m c 0 lastPt) (iblk m c 1 lastPt) (iblk m c 2 lastPt) (iblk m c 3 lastPt) _).trans ?_
  show k0_pay2 (step _ _ _ _ (outsAt0 m c 30 _).2) = k0_pay2 (step _ _ _ _ (acc m c 30 _))
  rw [scratch_eq m c 30]

/-- The one write-back, at the last point, writes `result`: block (0, 0) of the 1 × 1 array, read through zero offsets, is the array. -/
theorem flushed_eq (c : Dev nD) (t : Fin cfg0.N) (hf : (cfg0.win 4).flush t = true) :
    (dats m 0 c).flushed 4 t = ((cfg0.win 4).blk t).view.read (Elt F) (result m c) := by
  have hN : cfg0.N = 32 := N_0
  have h31 : t.val = 31 := by have := (flush0_4 t).mp hf; have := t.isLt; omega
  obtain rfl : t = lastPt := Fin.ext h31
  show (cfg0.win 4).cut (grid0.coords lastPt) ((dats m 0 c).after 4 lastPt) = _
  rw [after0_4, out_eq]
  have hz' : (fun a => win0_4.index lastPt a * main_v2.ty.shape.size a) = fun _ => 0 := funext fun a => by fin_cases a <;> decide
  exact (Memref.read_access_unit_zero (Elt F) main_v2 hz' (fun a => by rw [congrFun hz' a]; simp) (result m c)).symm

/-- So the output array ends holding `result`: the last point's block covers it. -/
theorem final_out (c : Dev nD) : (dats m 0 c).arrAt 4 cfg0.N = result m c :=
  (dats m 0 c).arrAt_eq_of_cover 4 (result m c) (flushed_eq m c) fun i =>
    ⟨lastPt, (flush0_4 lastPt).mpr rfl, by
      show i ∈ ((View.whole main_v2).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [show win0_4.index lastPt 0 * win0_4.size 0 = 0 from by decide +kernel, show win0_4.xsize (grid0.coords lastPt) 0 = 1 from by decide +kernel]; omega
      | ⟨1, _⟩ => show win0_4.index lastPt 1 * win0_4.size 1 ≤ (i 1 : Nat) ∧ (i 1 : Nat) < win0_4.index lastPt 1 * win0_4.size 1 + win0_4.xsize (grid0.coords lastPt) 1
                  rw [show win0_4.index lastPt 1 * win0_4.size 1 = 0 from by decide +kernel, show win0_4.xsize (grid0.coords lastPt) 1 = 1 from by decide +kernel]; omega⟩

/-- The program's result: the output array viewed as a scalar, divided by the row count. -/
def tail (v : Vec F S1x1 .f32) : Vec F S_ .f32 :=
  Host.divf (F := F) (shapeCast S_ v shapeCasts_S1x1_S_) (constant (F := F) S_ .f32 0x47800000#32)

/-- What the host operations after the call leave in the result buffer. -/
theorem tail_eq (c : Dev nD) :
    Pipeline.afterTail₀ cfgs (dats m) 0 (V0 m) [hostOps1] c main_v4 = tail (result m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2) = result m c :=
    (Pipeline.withArrays_arr spec0 launch0.win.arr_inj c _ _ 4).trans (final_out m c)
  rw [e]
  rfl

end Cert.KernelIdeal.Run

end
-- ==== Proof.RowLoss.lean ====
/-
  The mathematics both programs compute, stated once over the extended reals.

  For one sample (a feature row `x` of 512 entries), the prototype table `P` (128 rows of 512), and a mask row `k`
  (label times weight, 128 entries):

    * the row is scaled to unit length with the guard `max (√(∑ x²)) ε`;
    * its 128 inner products with the prototypes are scaled by the inverse temperature (`sc`);
    * the row maximum is subtracted, the unmasked exponentials are summed, and the masked log-probabilities are added up.

  The loss is the mean over all 65536 rows of `-T` times that row term. The kernel walks the rows in 32 blocks of 2048
  and keeps a running sum; the reference sums all rows at once: over the extended reals addition is commutative and
  associative, so the two orders give one value (`sum_blocks`).
-/
import Idealize.ShloMosaic.PureOps.Ideal
import Idealize.ShloMosaic.PureOps.Ideal.Laws
import Idealize.ShloMosaic.Lib.ValueIdx

noncomputable section

namespace Cert.Mrc

open Idealize.ShloMosaic

/-- The normalisation guard `ε`, the f32 word both programs carry. -/
abbrev eps : EReal := Ideal.ofBits .f32 0x2B8CBCCC#32
/-- `-∞`, the start of a running maximum. -/
abbrev negInf : EReal := Ideal.ofBits .f32 0xFF800000#32
/-- The f32 word of `1.0`. -/
abbrev oneW : EReal := Ideal.ofBits .f32 0x3F800000#32
/-- The f32 word of `0.0`. -/
abbrev zeroW : EReal := Ideal.ofBits .f32 0x00000000#32
/-- `-T`: the f32 word nearest `-0.1`, carried by both programs. -/
abbrev negTemp : EReal := Ideal.ofBits .f32 0xBDCCCCCD#32
/-- `T`: the f32 word nearest `0.1`, the reference's divisor. -/
abbrev temp : EReal := Ideal.ofBits .f32 0x3DCCCCCD#32
/-- The number of rows, `65536.0`. -/
abbrev rows : EReal := Ideal.ofBits .f32 0x47800000#32

/-- The guarded length of a row: `max (√(∑ x_d²)) ε`. -/
def rowNorm (x : Fin 512 → EReal) : EReal := max (Ideal.sqrt (∑ d : Fin 512, x d * x d)) eps

/-- The inner product of the unit-length row with one prototype `q`. -/
def rowDot (x q : Fin 512 → EReal) : EReal := ∑ d : Fin 512, Ideal.div (x d) (rowNorm x) * q d

/-- From the 128 scaled logits `g` and the mask row `k`: subtract the row maximum, sum the unmasked exponentials, and
    add up the masked log-probabilities. -/
def rowTerm (g k : Fin 128 → EReal) : EReal :=
  ∑ p : Fin 128, k p * ((g p - Finset.univ.fold max negInf g)
    - Ideal.log (∑ p' : Fin 128, Ideal.exp (g p' - Finset.univ.fold max negInf g) * (oneW - k p')))

/-- One sample's term: the logits are the row's inner products with the prototypes, each scaled by `sc`. -/
def rowLoss (sc : EReal → EReal) (x : Fin 512 → EReal) (P : Fin 128 → Fin 512 → EReal) (k : Fin 128 → EReal) : EReal :=
  rowTerm (fun p => sc (rowDot x (P p))) k

/-- The loss: `-T` times each row's term, summed over the 65536 rows, divided by their number; the logits are the inner
    products divided by `T`. `X n` is row `n` of the features, `P p` prototype `p`, `K n` row `n` of the mask. -/
def loss (X : Fin 65536 → Fin 512 → EReal) (P : Fin 128 → Fin 512 → EReal) (K : Fin 65536 → Fin 128 → EReal) : EReal :=
  Ideal.div (∑ n : Fin 65536, negTemp * rowLoss (fun z => Ideal.div z temp) (X n) P (K n)) rows

/-- The f32 word of `1.0` denotes one, the word of `0.0` zero. -/
theorem oneW_eq : oneW = 1 := IdealRules.sign_bit.ideal_onePat .f32
theorem zeroW_eq : zeroW = 0 := Ideal.ofBits_zero_f32

/-- The reference's divisor `T` is the dyadic rational 13421773 / 2^27 (the f32 nearest to 0.1). -/
theorem temp_eq : temp = ((13421773 / 134217728 : ℝ) : EReal) := by
  simp [Ideal.ofBits, Ideal.ieee, -EReal.coe_mul]; norm_num

/-- Multiplying by the exact reciprocal `1 / T` is dividing by `T`, on every extended real. -/
theorem scale_eq (z : EReal) : z * ((134217728 / 13421773 : ℝ) : EReal) = Ideal.div z temp := by
  rw [temp_eq, Ideal.div_coe (by norm_num)]
  congr 2
  norm_num

/-- Row `2048 t + r`: row `r` of block `t`. -/
abbrev rowOf (t : Fin 32) (r : Fin 2048) : Fin 65536 := ⟨2048 * t.val + r.val, by have := t.isLt; have := r.isLt; omega⟩

/-- A sum over all 65536 rows is the sum over the 32 blocks of each block's 2048 rows (in a commutative monoid the order
    of the terms is immaterial). -/
theorem sum_blocks {M : Type*} [AddCommMonoid M] (f : Fin 65536 → M) :
    ∑ n : Fin 65536, f n = ∑ t : Fin 32, ∑ r : Fin 2048, f (rowOf t r) := by
  rw [← Fintype.sum_prod_type']
  refine (Fintype.sum_equiv (finProdFinEquiv (m := 32) (n := 2048)) _ _ fun tr => ?_).symm
  refine congrArg f (Fin.ext ?_)
  show 2048 * tr.1.val + tr.2.val = tr.2.val + 2048 * tr.1.val
  omega

end Cert.Mrc

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.KernelRows.lean ====
/-
  The kernel's body, read row by row at the ideal values.

  For a block of 2048 feature rows `x0`, the transposed prototype table `x2` (512 × 128), the block's labels `x1` and the
  weight row `x3`: entry `r` of the body's per-row vector is the row term of `RowLoss.lean` for row `r` of the block,
  with the logits scaled by the named reciprocal of the temperature; and the scratch update adds, to the accumulator,
  `-T` times the sum of the 2048 row terms.
-/
import proofs.«180132_j89678917140921_1_alg».proof.Proof.Gen.KernelIdeal.Skeleton
import proofs.«180132_j89678917140921_1_alg».proof.Proof.RowLoss
import proofs.«180132_j89678917140921_1_alg».proof.Proof.LibColumns
import Idealize.ShloMosaic.Lib.ValueLayout
import Idealize.ShloMosaic.Lib.Pipeline.Value
import Idealize.ShloMosaic.PureOps.IdealRules

noncomputable section

namespace Cert.KernelIdeal.Rows

open Idealize.ShloMosaic Idealize.ShloMosaic.ValueIdx Cert.KernelIdeal Cert.KernelIdeal.Gen Cert.LibColumns

/-! ## Operations read at an index -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- An f32 sum along a row, from the zero word. -/
theorem sum_row {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- An f32 sum down a column, from the zero word. -/
theorem sum_col {a b : ℕ} (src : FVec Ideal ⟨2, ![a, b]⟩ .f32) (h : (⟨2, ![a, b]⟩ : Shape).Reduces [0] (⟨1, ![b]⟩ : Shape))
    (hφ : FKind.Formats .f32) (hacc : (0x00000000#32 : BitVec 32) = 0x00000000#32) (c : Fin b) :
    multiReduction .add [0] ⟨1, ![b]⟩ src 0x00000000#32 h hφ hacc (ix1 c) = ∑ k : Fin a, src (ix2 k c) :=
  colSum_apply src _ h hφ hacc c

/-- An f32 maximum along a row, from `-∞`. -/
theorem max_row {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec 32) = 0xFF800000#32) (r : Fin a) :
    multiReduction .maximumf [1] ⟨1, ![a]⟩ src 0xFF800000#32 h hφ hacc (ix1 r)
      = (Finset.univ : Finset (Fin b)).fold max Mrc.negInf fun k => src (ix2 r k) :=
  rowMax_apply src _ h hφ hacc r

/-! ## The matrix product -/

theorem lhs_dot_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs_dot_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhs_dot_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhs_dot_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The block's matrix product into a zero accumulator, at `(r, p)`: the inner product of row `r` of the left operand
    with column `p` of the right. -/
theorem matmul_row {φ₁ φ₂ : FTy} (l : FVec Ideal S2048x512 φ₁) (w : FVec Ideal S512x128 φ₂) (r : Fin 2048) (p : Fin 128) :
    matmul dot_S2048x512_S512x128_S2048x128_1_0_0_1_n_n none l w (constant S2048x128 .f32 0x00000000#32) (ix2 r p)
      = ∑ d : Fin 512, l (ix2 r d) * w (ix2 d p) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 r p) ((contrEquiv1 dot_S2048x512_S512x128_S2048x128_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S2048x512_S512x128_S2048x128_1_0_0_1_n_n.rhsIdx (ix2 r p) ((contrEquiv1 dot_S2048x512_S512x128_S2048x128_1_0_0_1_n_n 512 rfl rfl).symm k) = ix2 k p := funext fun a => Fin.ext (by
    match a with
    | ⟨0, _⟩ => exact (rhs_dot_0 _ _).trans hk
    | ⟨1, _⟩ => exact rhs_dot_1 _ _)
  rw [el, er]

/-! ## The named constant -/

/-- The kernel's scale is named the exact reciprocal of the reference's divisor. -/
theorem invTemp_eq : Named.named (F := Ideal) κ "inv_temperature" (φ := .f32) 0x41200000#32 = ((134217728 / 13421773 : ℝ) : EReal) :=
  IdealRules.named_const.ideal_named_scalar _ _ _ _ rfl

/-! ## The body's per-row vector, stage by stage

The payload `k0_pay4` regrouped into the quantities the mathematics names; `pay4_eq` says the regrouping is the payload. -/

/-- The guarded row lengths, as a column. -/
def lengths (x0 : Vec Ideal S2048x512 .f32) : FVec Ideal S2048x1 .f32 :=
  maximumf (sqrt (shapeCast S2048x1 (multiReduction .add [1] S2048 (mulf x0 x0) 0x00000000#32 reduces_S2048x512_S2048 (.inl rfl) rfl) shapeCasts_S2048_S2048x1))
    (broadcast S2048x1 (Scalar.ofBits .f32 0x2B8CBCCC#32))

/-- The rows scaled to unit length. -/
def unitRows (x0 : Vec Ideal S2048x512 .f32) : FVec Ideal S2048x512 .f32 :=
  divf x0 (broadcastTo S2048x512 (lengths x0) broadcasts_S2048x1_S2048x512)

/-- The scaled logits of the block. -/
def logits (x0 : Vec Ideal S2048x512 .f32) (x2 : Vec Ideal S512x128 .f32) : FVec Ideal S2048x128 .f32 :=
  mulf (matmul dot_S2048x512_S512x128_S2048x128_1_0_0_1_n_n none (truncf .bf16 (unitRows x0) bitsLt_bf16_f32)
      (truncf .bf16 (shapeCast S512x128 x2 shapeCasts_S512x128_S512x128) bitsLt_bf16_f32) (constant S2048x128 .f32 0x00000000#32))
    (broadcast S2048x128 (Named.named κ "inv_temperature" 0x41200000#32))

/-- The logits with each row's maximum subtracted. -/
def shifted (x0 : Vec Ideal S2048x512 .f32) (x2 : Vec Ideal S512x128 .f32) : FVec Ideal S2048x128 .f32 :=
  subf (logits x0 x2) (broadcastTo S2048x128 (shapeCast S2048x1
    (multiReduction .maximumf [1] S2048 (logits x0 x2) 0xFF800000#32 reduces_S2048x128_S2048 (.inl rfl) rfl) shapeCasts_S2048_S2048x1) broadcasts_S2048x1_S2048x128)

/-- The mask: label (as a float) times weight. -/
def mask (x1 : Vec Ideal S2048x128 .i32) (x3 : Vec Ideal S1x128 .f32) : FVec Ideal S2048x128 .f32 :=
  mulf (sitofp .f32 x1) (broadcastTo S2048x128 (shapeCast S1x128 x3 shapeCasts_S1x128_S1x128) broadcasts_S1x128_S2048x128)

/-- Each row's sum of unmasked exponentials. -/
def sumExp (x0 : Vec Ideal S2048x512 .f32) (x1 : Vec Ideal S2048x128 .i32) (x2 : Vec Ideal S512x128 .f32) (x3 : Vec Ideal S1x128 .f32) :
    FVec Ideal S2048 .f32 :=
  multiReduction .add [1] S2048 (mulf (exp (shifted x0 x2)) (subf (broadcast S2048x128 (Scalar.ofBits .f32 0x3F800000#32)) (mask x1 x3)))
    0x00000000#32 reduces_S2048x128_S2048 (.inl rfl) rfl

/-- Each row's sum of masked log-probabilities. -/
def rowVec (x0 : Vec Ideal S2048x512 .f32) (x1 : Vec Ideal S2048x128 .i32) (x2 : Vec Ideal S512x128 .f32) (x3 : Vec Ideal S1x128 .f32) :
    FVec Ideal S2048 .f32 :=
  multiReduction .add [1] S2048 (mulf (mask x1 x3) (subf (shifted x0 x2)
      (broadcastTo S2048x128 (log (shapeCast S2048x1 (sumExp x0 x1 x2 x3) shapeCasts_S2048_S2048x1)) broadcasts_S2048x1_S2048x128)))
    0x00000000#32 reduces_S2048x128_S2048 (.inl rfl) rfl

theorem pay4_eq (x0 : Vec Ideal S2048x512 .f32) (x1 : Vec Ideal S2048x128 .i32) (x2 : Vec Ideal S512x128 .f32) (x3 : Vec Ideal S1x128 .f32) :
    k0_pay4 (F := Ideal) x0 x2 x1 x3 = rowVec x0 x1 x2 x3 := rfl

variable (x0 : Vec Ideal S2048x512 .f32) (x1 : Vec Ideal S2048x128 .i32) (x2 : Vec Ideal S512x128 .f32) (x3 : Vec Ideal S1x128 .f32)

/-- Row `r` of the feature block. -/
abbrev row (r : Fin 2048) : Fin 512 → EReal := fun d => x0 (ix2 r d)
/-- Prototype `p`: column `p` of the transposed table. -/
abbrev proto (p : Fin 128) : Fin 512 → EReal := fun d => x2 (ix2 d p)
/-- Row `r` of the mask. -/
abbrev maskRow (r : Fin 2048) : Fin 128 → EReal := fun p => FloatOps.sitofp (F := Ideal) .f32 (x1 (ix2 r p)) * x3 (ix2 (0 : Fin 1) p)
/-- The kernel's scale: multiplication by the named reciprocal of the temperature. -/
abbrev scale : EReal → EReal := fun z => z * ((134217728 / 13421773 : ℝ) : EReal)

theorem lengths_apply (r : Fin 2048) (u : Fin 1) : lengths x0 (ix2 r u) = Mrc.rowNorm (row x0 r) := by
  show max (Ideal.sqrt (shapeCast S2048x1 (multiReduction (F := Ideal) .add [1] S2048 (mulf (F := Ideal) x0 x0) 0x00000000#32 reduces_S2048x512_S2048 (.inl rfl) rfl)
    shapeCasts_S2048_S2048x1 (ix2 r u))) (Ideal.ofBits .f32 0x2B8CBCCC#32) = _
  refine congrArg (fun z => max (Ideal.sqrt z) (Ideal.ofBits .f32 0x2B8CBCCC#32)) ?_
  exact (shapeCast_a_a1_apply _ _ r u).trans (rowSum_apply _ _ _ _ _ r)

theorem unitRows_apply (r : Fin 2048) (d : Fin 512) : unitRows x0 (ix2 r d) = Ideal.div (x0 (ix2 r d)) (Mrc.rowNorm (row x0 r)) := by
  show Ideal.div (x0 (ix2 r d)) (broadcastTo S2048x512 (lengths x0) broadcasts_S2048x1_S2048x512 (ix2 r d)) = _
  exact congrArg (Ideal.div (x0 (ix2 r d))) ((broadcastTo_a1_ab_apply _ _ r d).trans (lengths_apply x0 r 0))

theorem logits_apply (r : Fin 2048) (p : Fin 128) : logits x0 x2 (ix2 r p) = scale (Mrc.rowDot (row x0 r) (proto x2 p)) := by
  show matmul dot_S2048x512_S512x128_S2048x128_1_0_0_1_n_n none (truncf .bf16 (unitRows x0) bitsLt_bf16_f32)
      (truncf .bf16 (shapeCast S512x128 x2 shapeCasts_S512x128_S512x128) bitsLt_bf16_f32) (constant S2048x128 .f32 0x00000000#32) (ix2 r p)
    * Named.named (F := Ideal) κ "inv_temperature" (φ := .f32) 0x41200000#32 = _
  rw [invTemp_eq]
  refine congrArg (fun z => z * ((134217728 / 13421773 : ℝ) : EReal)) ?_
  refine (matmul_row _ _ r p).trans (Finset.sum_congr rfl fun d _ => ?_)
  show unitRows x0 (ix2 r d) * shapeCast S512x128 x2 shapeCasts_S512x128_S512x128 (ix2 d p) = _
  rw [unitRows_apply, shapeCast_self]

theorem shifted_apply (r : Fin 2048) (p : Fin 128) :
    shifted x0 x2 (ix2 r p) = scale (Mrc.rowDot (row x0 r) (proto x2 p))
      - Finset.univ.fold max Mrc.negInf fun p' : Fin 128 => scale (Mrc.rowDot (row x0 r) (proto x2 p')) := by
  show logits x0 x2 (ix2 r p) - broadcastTo S2048x128 (shapeCast S2048x1
    (multiReduction .maximumf [1] S2048 (logits x0 x2) 0xFF800000#32 reduces_S2048x128_S2048 (.inl rfl) rfl) shapeCasts_S2048_S2048x1)
      broadcasts_S2048x1_S2048x128 (ix2 r p) = _
  refine congrArg₂ (· - ·) (logits_apply x0 x2 r p) ?_
  refine (broadcastTo_a1_ab_apply _ _ r p).trans ((shapeCast_a_a1_apply _ _ r 0).trans ((rowMax_apply _ _ _ _ _ r).trans ?_))
  exact congrArg (fun f => Finset.fold max Mrc.negInf f (Finset.univ : Finset (Fin 128))) (funext fun k => logits_apply x0 x2 r k)

theorem mask_apply (r : Fin 2048) (p : Fin 128) : mask x1 x3 (ix2 r p) = maskRow x1 x3 r p := by
  show FloatOps.sitofp (F := Ideal) .f32 (x1 (ix2 r p))
    * broadcastTo S2048x128 (shapeCast S1x128 x3 shapeCasts_S1x128_S1x128) broadcasts_S1x128_S2048x128 (ix2 r p) = _
  refine congrArg (fun z => FloatOps.sitofp (F := Ideal) .f32 (x1 (ix2 r p)) * z) ?_
  rw [broadcastTo_1b_ab_apply, shapeCast_self]

theorem sumExp_apply (r : Fin 2048) :
    sumExp x0 x1 x2 x3 (ix1 r) = ∑ p : Fin 128, Ideal.exp (shifted x0 x2 (ix2 r p)) * (Mrc.oneW - mask x1 x3 (ix2 r p)) :=
  rowSum_apply _ _ _ _ _ r

/-- Entry `r` of the body's per-row vector is the row term of row `r` of the block. -/
theorem rowVec_apply (r : Fin 2048) :
    rowVec x0 x1 x2 x3 (ix1 r) = Mrc.rowLoss scale (row x0 r) (fun p => proto x2 p) (maskRow x1 x3 r) := by
  refine (rowSum_apply _ _ _ _ _ r).trans ?_
  unfold Mrc.rowLoss Mrc.rowTerm
  refine Finset.sum_congr rfl fun p _ => ?_
  show mask x1 x3 (ix2 r p) * (shifted x0 x2 (ix2 r p)
    - broadcastTo S2048x128 (log (shapeCast S2048x1 (sumExp x0 x1 x2 x3) shapeCasts_S2048_S2048x1)) broadcasts_S2048x1_S2048x128 (ix2 r p)) = _
  rw [mask_apply, shifted_apply]
  refine congrArg₂ (· * ·) rfl (congrArg₂ (· - ·) rfl ?_)
  refine (broadcastTo_a1_ab_apply _ _ r p).trans ?_
  show Ideal.log (shapeCast S2048x1 (sumExp x0 x1 x2 x3) shapeCasts_S2048_S2048x1 (ix2 r (0 : Fin 1))) = _
  rw [shapeCast_a_a1_apply, sumExp_apply]
  refine congrArg Ideal.log (Finset.sum_congr rfl fun p' _ => ?_)
  rw [mask_apply, shifted_apply]

/-- Entry `r` of the body's per-row payload: the row term of row `r` of the block. -/
theorem pay4_apply (r : Fin 2048) :
    k0_pay4 (F := Ideal) x0 x2 x1 x3 (ix1 r) = Mrc.rowLoss scale (row x0 r) (fun p => proto x2 p) (maskRow x1 x3 r) :=
  (congrFun (pay4_eq x0 x1 x2 x3) (ix1 r)).trans (rowVec_apply x0 x1 x2 x3 r)

/-! ## The scratch update, the reset value and the output value -/

/-- The scratch update at its one index: the accumulator plus `-T` times the sum of the per-row entries. -/
theorem pay1_apply (v : FVec Ideal S2048 .f32) (acc : Vec Ideal S1x1 .f32) (a b : Fin 1) :
    k0_pay1 (F := Ideal) v acc (ix2 a b) = acc (ix2 a b) + ∑ r : Fin 2048, Mrc.negTemp * v (ix1 r) := by
  unfold k0_pay1
  rw [shapeCast_self]
  show acc (ix2 a b) + shapeCast S1x1 (multiReduction (F := Ideal) .add [0] S1 (mulf (F := Ideal) (broadcast S2048x1 (Scalar.ofBits (F := Ideal) .f32 0xBDCCCCCD#32))
    (shapeCast S2048x1 v shapeCasts_S2048_S2048x1)) 0x00000000#32 reduces_S2048x1_S1 (.inl rfl) rfl) shapeCasts_S1_S1x1 (ix2 a b) = _
  refine congrArg (fun z => acc (ix2 a b) + z) ?_
  refine (shapeCast_a_1a_apply _ _ a b).trans ((colSum_apply _ _ _ _ _ b).trans (Finset.sum_congr rfl fun k _ => ?_))
  show Mrc.negTemp * shapeCast S2048x1 v shapeCasts_S2048_S2048x1 (ix2 k b) = _
  rw [shapeCast_a_a1_apply]

/-- The reset stores the zero word. -/
theorem pay3_apply (j : S1x1.Idx) : k0_pay3 (F := Ideal) j = Mrc.zeroW := by
  unfold k0_pay3
  rw [shapeCast_self]
  rfl

/-- The output is the f32 word of one times the scratch. -/
theorem pay2_apply (v : Vec Ideal S1x1 .f32) (j : S1x1.Idx) : k0_pay2 (F := Ideal) v j = Mrc.oneW * v j := rfl

end Cert.KernelIdeal.Rows

end
-- ==== Proof.KernelBlocks.lean ====
/-
  What the kernel's windows read: each block of the four input windows, entry by entry, is an entry of an argument array.

  Block `t` of the features (2048 × 512) and of the labels (2048 × 128) holds rows `2048 t … 2048 t + 2047` of its array.
  The prototype window is the whole transposed table (the host transposes the 128 × 512 argument before the call), so its
  entry `(d, p)` is the argument's `(p, d)`; the weight window is the weight vector viewed as one row.
-/
import proofs.«180132_j89678917140921_1_alg».proof.Proof.Gen.KernelIdeal.Frame
import proofs.«180132_j89678917140921_1_alg».proof.Proof.RowLoss
import Idealize.ShloMosaic.Lib.Pipeline.Value
import Idealize.ShloMosaic.Lib.ValueLayout
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F] [Named F]
variable (m : (ℓ : Loc nD τ sig) → Buf (Elt F) ℓ)

/-- A grid point as a block number below 32. -/
abbrev blockOf (t : Fin cfg0.N) : Fin 32 := ⟨t.val, lt_of_lt_of_eq t.isLt (show cfg0.N = 32 from N_0)⟩

/-! ## The printed index maps over the grid -/

/-- The feature window's block index at point `t` is `(t, 0)`. -/
theorem index_features : ∀ t : Fin cfg0.N, win0_0.index t (0 : Fin 2) = t.val ∧ win0_0.index t (1 : Fin 2) = 0 :=
  (by decide +kernel : ∀ t : Fin grid0.N, _)
/-- The label window's block index at point `t` is `(t, 0)`. -/
theorem index_labels : ∀ t : Fin cfg0.N, win0_1.index t (0 : Fin 2) = t.val ∧ win0_1.index t (1 : Fin 2) = 0 :=
  (by decide +kernel : ∀ t : Fin grid0.N, _)
/-- The prototype window's block index is `(0, 0)` at every point. -/
theorem index_prototypes : ∀ t : Fin cfg0.N, win0_2.index t (0 : Fin 2) = 0 ∧ win0_2.index t (1 : Fin 2) = 0 :=
  (by decide +kernel : ∀ t : Fin grid0.N, _)
/-- The weight window's block index is `(0, 0)` at every point. -/
theorem index_weights : ∀ t : Fin cfg0.N, win0_3.index t (0 : Fin 2) = 0 ∧ win0_3.index t (1 : Fin 2) = 0 :=
  (by decide +kernel : ∀ t : Fin grid0.N, _)

/-! ## The two arrays the host writes before the call -/

/-- The array the prototype window reads is the host's transpose of the prototype argument. -/
theorem V_prototypes (c : Dev nD) (h : S128x512.Transposes [1, 0] S512x128) :
    (V m c main_v0 : S512x128.Idx → Elt F .f32)
      = transpose S512x128 [1, 0] (m ((c.tc : Thread nD τ).loc main_arg3) : Vec F S128x512 .f32) h := by
  show StableHlo.after hostOps0 (fun b => m (c, b)) (Proc.devRef .tc main_v0) = _
  after_results

/-- The array the weight window reads is the host's reshape of the weight argument to one row. -/
theorem V_weights (c : Dev nD) (h : S128.ShapeCasts S1x128) :
    (V m c main_v1 : S1x128.Idx → Elt F .f32)
      = shapeCast S1x128 (m ((c.tc : Thread nD τ).loc main_arg5) : Vec F S128 .f32) h := by
  show StableHlo.after hostOps0 (fun b => m (c, b)) (Proc.devRef .tc main_v1) = _
  after_results
  rfl

/-! ## The blocks, entry by entry -/

/-- Block `t` of the feature window, at `(r, d)`: row `2048 t + r` of the feature argument. -/
theorem features_apply (c : Dev nD) (t : Fin cfg0.N) (r : Fin 2048) (d : Fin 512) :
    (iblk m c 0 t : Vec F S2048x512 .f32) (ix2 r d)
      = (m ((c.tc : Thread nD τ).loc main_arg2) : Vec F S65536x512 .f32) (ix2 (Cert.Mrc.rowOf (blockOf t) r) d) := by
  unfold iblk
  rw [View.read_apply]
  show V m c main_arg2 (((cfg0.win 0).blk t).view.emb (ix2 r d)) = _
  rw [V_main_arg2]
  refine congrArg _ (funext fun a => Fin.ext ?_)
  match a with
  | ⟨0, _⟩ =>
    show win0_0.index t 0 * 2048 + 1 * r.val = 2048 * t.val + r.val
    rw [(index_features t).1]; omega
  | ⟨1, _⟩ =>
    show win0_0.index t 1 * 512 + 1 * d.val = d.val
    rw [(index_features t).2]; omega

/-- Block `t` of the label window, at `(r, p)`: row `2048 t + r` of the label argument. -/
theorem labels_apply (c : Dev nD) (t : Fin cfg0.N) (r : Fin 2048) (p : Fin 128) :
    (iblk m c 1 t : Vec F S2048x128 .i32) (ix2 r p)
      = (m ((c.tc : Thread nD τ).loc main_arg4) : Vec F S65536x128 .i32) (ix2 (Cert.Mrc.rowOf (blockOf t) r) p) := by
  unfold iblk
  rw [View.read_apply]
  show V m c main_arg4 (((cfg0.win 1).blk t).view.emb (ix2 r p)) = _
  rw [V_main_arg4]
  refine congrArg _ (funext fun a => Fin.ext ?_)
  match a with
  | ⟨0, _⟩ =>
    show win0_1.index t 0 * 2048 + 1 * r.val = 2048 * t.val + r.val
    rw [(index_labels t).1]; omega
  | ⟨1, _⟩ =>
    show win0_1.index t 1 * 128 + 1 * p.val = p.val
    rw [(index_labels t).2]; omega

/-- The prototype window, at `(d, p)`: the prototype argument at `(p, d)` (the host's transpose). -/
theorem prototypes_apply (c : Dev nD) (t : Fin cfg0.N) (d : Fin 512) (p : Fin 128) :
    (iblk m c 2 t : Vec F S512x128 .f32) (ix2 d p)
      = (m ((c.tc : Thread nD τ).loc main_arg3) : Vec F S128x512 .f32) (ix2 p d) := by
  unfold iblk
  rw [View.read_apply]
  show (V m c main_v0 : S512x128.Idx → Elt F .f32) (((cfg0.win 2).blk t).view.emb (ix2 d p)) = _
  have e : ((cfg0.win 2).blk t).view.emb (ix2 d p) = ix2 d p := funext fun a => Fin.ext (by
    match a with
    | ⟨0, _⟩ =>
      show win0_2.index t 0 * 512 + 1 * d.val = d.val
      rw [(index_prototypes t).1]; omega
    | ⟨1, _⟩ =>
      show win0_2.index t 1 * 128 + 1 * p.val = p.val
      rw [(index_prototypes t).2]; omega)
  rw [e, V_prototypes m c transposes_S128x512_S512x128_1_0]
  exact transpose_ix2_apply _ _ d p

/-- The weight window, at `(0, p)`: the weight argument at `p` (the host's reshape to one row). -/
theorem weights_apply (c : Dev nD) (t : Fin cfg0.N) (p : Fin 128) :
    (iblk m c 3 t : Vec F S1x128 .f32) (ix2 (0 : Fin 1) p)
      = (m ((c.tc : Thread nD τ).loc main_arg5) : Vec F S128 .f32) (ix1 p) := by
  unfold iblk
  rw [View.read_apply]
  show (V m c main_v1 : S1x128.Idx → Elt F .f32) (((cfg0.win 3).blk t).view.emb (ix2 (0 : Fin 1) p)) = _
  have e : ((cfg0.win 3).blk t).view.emb (ix2 (0 : Fin 1) p) = ix2 (0 : Fin 1) p := funext fun a => Fin.ext (by
    match a with
    | ⟨0, _⟩ =>
      show win0_3.index t 0 * 1 + 1 * 0 = 0
      rw [(index_weights t).1]
    | ⟨1, _⟩ =>
      show win0_3.index t 1 * 128 + 1 * p.val = p.val
      rw [(index_weights t).2]; omega)
  rw [e, V_weights m c shapeCasts_S128_S1x128]
  exact shapeCast_a_1a_apply _ _ (0 : Fin 1) p

end Cert.KernelIdeal.Blocks

end
-- ==== Proof.KernelValue.lean ====
/-
  The kernel's result is the loss.

  Each grid point adds to the running sum the partial sum of its block: `-T` times the row terms of rows
  `2048 t … 2048 t + 2047` of the argument arrays. After the 32 points the running sum is zero plus the 32 partial sums,
  that is the sum over all 65536 rows; the output is one times it, and the host divides by the row count. The kernel
  scales its logits by the exact reciprocal of the temperature, which on the extended reals is the reference's division
  by the temperature.
-/
import proofs.«180132_j89678917140921_1_alg».proof.Proof.KernelRun
import proofs.«180132_j89678917140921_1_alg».proof.Proof.KernelRows
import proofs.«180132_j89678917140921_1_alg».proof.Proof.KernelBlocks
import proofs.«180132_j89678917140921_1_alg».proof.Proof.RowLoss
import Idealize.ShloMosaic.Lib.ValueIdx
import Idealize.ShloMosaic.Lib.Pipeline.Value

noncomputable section

namespace Cert.KernelIdeal.Total

open Idealize.ShloMosaic Idealize.ShloMosaic.TcCoe Idealize.SL.Sem Idealize.ShloMosaic.ValueIdx
open Cert.KernelIdeal Cert.KernelIdeal.Gen Cert.KernelIdeal.Pieces Cert.KernelIdeal.Run Cert.KernelIdeal.Blocks

variable (m : (ℓ : Loc nD τ sig) → Buf (Elt Ideal) ℓ) (ρ : Dev nD → PrngReg)

/-- The feature rows, the prototypes and the mask rows of the argument arrays. -/
abbrev X (c : Dev nD) : Fin 65536 → Fin 512 → EReal := fun n d => (m ((c.tc : Thread nD τ).loc main_arg2) : Vec Ideal S65536x512 .f32) (ix2 n d)
abbrev P (c : Dev nD) : Fin 128 → Fin 512 → EReal := fun p d => (m ((c.tc : Thread nD τ).loc main_arg3) : Vec Ideal S128x512 .f32) (ix2 p d)
abbrev K (c : Dev nD) : Fin 65536 → Fin 128 → EReal := fun n p =>
  FloatOps.sitofp (F := Ideal) .f32 ((m ((c.tc : Thread nD τ).loc main_arg4) : Vec Ideal S65536x128 .i32) (ix2 n p))
    * (m ((c.tc : Thread nD τ).loc main_arg5) : Vec Ideal S128 .f32) (ix1 p)

/-- Row `n`'s term, with the kernel's scaling of the logits. -/
abbrev term (c : Dev nD) (n : Fin 65536) : EReal := Mrc.rowLoss Rows.scale (X m c n) (P m c) (K m c n)

/-- Entry `r` of block `t`'s per-row vector is the term of row `2048 t + r` of the arguments. -/
theorem block_row (c : Dev nD) (t : Fin cfg0.N) (r : Fin 2048) :
    k0_pay4 (F := Ideal) (fblk m c t) (pblk m c t) (lblk m c t) (wblk m c t) (ix1 r) = term m c (Mrc.rowOf (blockOf t) r) := by
  have e1 : (fun d => fblk m c t (ix2 r d)) = X m c (Mrc.rowOf (blockOf t) r) := funext fun d => features_apply m c t r d
  have e2 : (fun p d => pblk m c t (ix2 d p)) = P m c := funext fun p => funext fun d => prototypes_apply m c t d p
  have e3 : (fun p => FloatOps.sitofp (F := Ideal) .f32 (lblk m c t (ix2 r p)) * wblk m c t (ix2 (0 : Fin 1) p)) = K m c (Mrc.rowOf (blockOf t) r) :=
    funext fun p => congrArg₂ (fun a b => FloatOps.sitofp (F := Ideal) .f32 a * b) (labels_apply m c t r p) (weights_apply m c t p)
  refine (Rows.pay4_apply (fblk m c t) (lblk m c t) (pblk m c t) (wblk m c t) r).trans ?_
  show Mrc.rowLoss Rows.scale (fun d => fblk m c t (ix2 r d)) (fun p d => pblk m c t (ix2 d p))
    (fun p => FloatOps.sitofp (F := Ideal) .f32 (lblk m c t (ix2 r p)) * wblk m c t (ix2 (0 : Fin 1) p)) = _
  rw [e1, e2, e3]

/-- Block `t`'s partial sum: `-T` times the terms of its 2048 rows. -/
abbrev blockSum (c : Dev nD) (t : Fin 32) : EReal := ∑ r : Fin 2048, Mrc.negTemp * term m c (Mrc.rowOf t r)

/-- One grid point adds its block's partial sum to the accumulator. -/
theorem step_apply (c : Dev nD) (t : Fin cfg0.N) (a : Vec Ideal S1x1 .f32) (i j : Fin 1) :
    step (fblk m c t) (lblk m c t) (pblk m c t) (wblk m c t) a (ix2 i j) = a (ix2 i j) + blockSum m c (blockOf t) := by
  refine (Rows.pay1_apply _ _ i j).trans (congrArg (fun z => a (ix2 i j) + z) (Finset.sum_congr rfl fun r _ => ?_))
  rw [block_row]

/-- The running sum after point `n`: zero plus the partial sums of blocks `0 … n`. -/
theorem acc_apply (c : Dev nD) : ∀ (n : ℕ) (h : n < cfg0.N) (i j : Fin 1),
    acc m c n h (ix2 i j)
      = Mrc.zeroW + ∑ t : Fin (n + 1), blockSum m c ⟨t.val, by have := t.isLt; have : cfg0.N = 32 := N_0; omega⟩
  | 0, h, i, j => by
    show step (fblk m c ⟨0, h⟩) (lblk m c ⟨0, h⟩) (pblk m c ⟨0, h⟩) (wblk m c ⟨0, h⟩) (k0_pay3 (F := Ideal)) (ix2 i j) = _
    rw [step_apply, Rows.pay3_apply, Fin.sum_univ_one]
    rfl
  | n + 1, h, i, j => by
    show step (fblk m c ⟨n + 1, h⟩) (lblk m c ⟨n + 1, h⟩) (pblk m c ⟨n + 1, h⟩) (wblk m c ⟨n + 1, h⟩) (acc m c n _) (ix2 i j) = _
    rw [step_apply, acc_apply c n _ i j, add_assoc]
    refine congrArg (fun z => Mrc.zeroW + z) ?_
    exact (Fin.sum_univ_castSucc (fun t : Fin (n + 1 + 1) =>
      blockSum m c ⟨t.val, by have := t.isLt; have : cfg0.N = 32 := N_0; omega⟩)).symm

/-- The output array's one entry: the sum over all rows of `-T` times the row's term. -/
theorem result_apply (c : Dev nD) (i j : Fin 1) : result m c (ix2 i j) = ∑ n : Fin 65536, Mrc.negTemp * term m c n := by
  show Mrc.oneW * acc m c 31 lastPt.isLt (ix2 i j) = _
  rw [acc_apply, Mrc.oneW_eq, one_mul, Mrc.zeroW_eq, zero_add, Mrc.sum_blocks]

/-- The host's last two operations at the result's one index: the array's entry divided by the row count. -/
theorem tail_apply (v : Vec Ideal S1x1 .f32) (i : S_.Idx) :
    tail v i = Ideal.div (v (ix2 (0 : Fin 1) (0 : Fin 1))) Mrc.rows := by
  show Ideal.div (shapeCast S_ v shapeCasts_S1x1_S_ i) (Ideal.ofBits .f32 0x47800000#32) = _
  refine congrArg (fun z => Ideal.div z Mrc.rows) (shapeCast_apply v _ i (ix2 (0 : Fin 1) (0 : Fin 1)) ?_)
  have h1 := (S_.rowMajor i).isLt
  have h2 : S_.numel = 1 := by decide
  rw [Shape.rowMajor_val_two]
  show 0 * 1 + 0 = _
  omega

/-- The kernel's result is the loss of the argument arrays. -/
theorem value_eq (c : Dev nD) : tail (result m c) = fun _ => Mrc.loss (X m c) (P m c) (K m c) := by
  funext i
  rw [tail_apply, result_apply]
  have hs : Rows.scale = fun z => Ideal.div z Mrc.temp := funext Mrc.scale_eq
  show Ideal.div (∑ n : Fin 65536, Mrc.negTemp * Mrc.rowLoss Rows.scale (X m c n) (P m c) (K m c n)) Mrc.rows = _
  rw [hs]
  rfl

/-- The run, read: the result buffer at the loss of the argument arrays, the arguments unchanged. -/
theorem run : θ_run defs (onTc (τ := τ) (main (F := Ideal))) ⟨m, fun _ => 0, ρ⟩ fun r => ∀ c : Dev nD,
      r.2.mem ((c.tc : Thread nD τ).loc main_v4) = (fun _ => Mrc.loss (X m c) (P m c) (K m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(((h c).2 main_v4 (Pipeline.mem_restRefs_of main_v4 (by decide) (by decide))).trans (tail_eq m c)).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Total

end
-- ==== Proof.RefRows.lean ====
/-
  The reference, read row by row: its result is the loss of `RowLoss.lean` of its four live arguments.
-/
import proofs.«180132_j89678917140921_1_alg».proof.Proof.Gen.ReferenceIdeal.Read
import proofs.«180132_j89678917140921_1_alg».proof.Proof.RowLoss
import proofs.«180132_j89678917140921_1_alg».proof.Proof.LibColumns
import Idealize.ShloMosaic.Lib.ValueIdx
import Idealize.ShloMosaic.PureOps.Ideal.Laws

noncomputable section

namespace Cert.ReferenceIdeal.RefRows

open Cert.ReferenceIdeal Cert.ReferenceIdeal.Gen Idealize.ShloMosaic Idealize.ShloMosaic.ValueIdx
open Cert.ReferenceIdeal.Read

/-! ## The index maps of the layout operations, at an index given by its coordinates

Each broadcast, reduction and contraction reads its operand at an index computed from the result's index. At a result
index written by its coordinates the operand index is again one written by coordinates: a row-wise reduction at row `n`
reads `(n, k)`; a column `(n, ·)` reads the vector at `n`; a broadcast of a column reads `(n, 0)`. -/

theorem idx_call0_v1 (n : Fin 65536) (k : Fin 512) : idx_main_call0_v1 (ix1 n) k = ix2 n k :=
  funext fun a => Fin.ext (by match a with | ⟨0, _⟩ => rfl | ⟨1, _⟩ => rfl)

theorem idx_call0_v2 (n : Fin 65536) (u : Fin 1) : idx_main_call0_v2 (ix2 n u) = ix1 n :=
  funext fun a => Fin.ext (by match a with | ⟨0, _⟩ => rfl)

theorem idx_v3 (n : Fin 65536) (d : Fin 512) : idx_main_v3 (ix2 n d) = ix2 n (0 : Fin 1) :=
  funext fun a => Fin.ext (by match a with | ⟨0, _⟩ => rfl | ⟨1, _⟩ => rfl)

theorem lidx_v5 (n : Fin 65536) (p : Fin 128) (k : Fin 512) : lidx_main_v5 (ix2 n p) k = ix2 n k :=
  funext fun a => Fin.ext (by match a with | ⟨0, _⟩ => rfl | ⟨1, _⟩ => rfl)

theorem ridx_v5 (n : Fin 65536) (p : Fin 128) (k : Fin 512) : ridx_main_v5 (ix2 n p) k = ix2 p k :=
  funext fun a => Fin.ext (by match a with | ⟨0, _⟩ => rfl | ⟨1, _⟩ => rfl)

theorem idx_v9 (n : Fin 65536) (u : Fin 1) : idx_main_v9 (ix2 n u) = ix1 n :=
  funext fun a => Fin.ext (by match a with | ⟨0, _⟩ => rfl)

theorem idx_v10 (n : Fin 65536) (p : Fin 128) : idx_main_v10 (ix2 n p) = ix2 n (0 : Fin 1) :=
  funext fun a => Fin.ext (by match a with | ⟨0, _⟩ => rfl | ⟨1, _⟩ => rfl)

theorem idx_v13 (u : Fin 1) (p : Fin 128) : idx_main_v13 (ix2 u p) = ix1 p :=
  funext fun a => Fin.ext (by match a with | ⟨0, _⟩ => rfl)

theorem idx_v14 (n : Fin 65536) (p : Fin 128) : idx_main_v14 (ix2 n p) = ix2 (0 : Fin 1) p :=
  funext fun a => Fin.ext (by match a with | ⟨0, _⟩ => rfl | ⟨1, _⟩ => rfl)

theorem idx_v20 (n : Fin 65536) (k : Fin 128) : idx_main_v20 (ix1 n) k = ix2 n k :=
  funext fun a => Fin.ext (by match a with | ⟨0, _⟩ => rfl | ⟨1, _⟩ => rfl)

theorem idx_v21 (n : Fin 65536) (u : Fin 1) : idx_main_v21 (ix2 n u) = ix1 n :=
  funext fun a => Fin.ext (by match a with | ⟨0, _⟩ => rfl)

theorem idx_v23 (n : Fin 65536) (p : Fin 128) : idx_main_v23 (ix2 n p) = ix2 n (0 : Fin 1) :=
  funext fun a => Fin.ext (by match a with | ⟨0, _⟩ => rfl | ⟨1, _⟩ => rfl)

theorem idx_v26 (n : Fin 65536) (k : Fin 128) : idx_main_v26 (ix1 n) k = ix2 n k :=
  funext fun a => Fin.ext (by match a with | ⟨0, _⟩ => rfl | ⟨1, _⟩ => rfl)

/-! ## One row: its guarded length, its logits, their maximum -/

/-- The sum of the squares of row `n`: the reduction starts from the zero word, which adds nothing. -/
theorem sumSq_row (x2 : (⟨S65536x512, .f32⟩ : BufTy).Contents (Elt Ideal)) (n : Fin 65536) :
    val_main_call0_v1 (F := Ideal) x2 (ix1 n) = ∑ d : Fin 512, x2 (ix2 n d) * x2 (ix2 n d) := by
  refine (val_main_call0_v1_apply x2 (ix1 n)).trans ?_
  rw [val_main_call0_cst_apply, Ideal.ofBits_def, Ideal.ofBits_zero_f32, zero_add]
  refine Finset.sum_congr rfl fun k _ => ?_
  rw [idx_call0_v1, val_main_call0_v0_apply, Ideal.mulf_def]

/-- The guarded length of row `n`, at either spelling of the unit coordinate. -/
theorem norm_row (x2 : (⟨S65536x512, .f32⟩ : BufTy).Contents (Elt Ideal)) (n : Fin 65536) (u : Fin 1) :
    val_main_v2 (F := Ideal) x2 (ix2 n u) = Cert.Mrc.rowNorm (fun d => x2 (ix2 n d)) := by
  rw [val_main_v2_apply, val_main_v0_apply, val_main_call0_v2_apply, idx_call0_v2, sumSq_row, val_main_v1_apply,
    val_main_cst_apply, Ideal.maximumf_def, Ideal.hostUnary_sqrt_def, Ideal.ofBits_def]
  rfl

/-- An entry of row `n` scaled to unit length. -/
theorem unit_row (x2 : (⟨S65536x512, .f32⟩ : BufTy).Contents (Elt Ideal)) (n : Fin 65536) (d : Fin 512) :
    val_main_v4 (F := Ideal) x2 (ix2 n d)
      = Ideal.div (x2 (ix2 n d)) (Cert.Mrc.rowNorm (fun d => x2 (ix2 n d))) := by
  rw [val_main_v4_apply, val_main_v3_apply, idx_v3, norm_row, Ideal.hostDivf_def]

/-- The inner product of the unit-length row `n` with prototype `p`. -/
theorem dot_row (x2 : (⟨S65536x512, .f32⟩ : BufTy).Contents (Elt Ideal)) (x3 : (⟨S128x512, .f32⟩ : BufTy).Contents (Elt Ideal)) (n : Fin 65536) (p : Fin 128) :
    val_main_v5 (F := Ideal) x2 x3 (ix2 n p)
      = Cert.Mrc.rowDot (fun d => x2 (ix2 n d)) (fun d => x3 (ix2 p d)) := by
  refine (val_main_v5_apply x2 x3 (ix2 n p)).trans ?_
  unfold Cert.Mrc.rowDot
  refine Finset.sum_congr rfl fun k _ => ?_
  rw [lidx_v5, ridx_v5, unit_row]

/-- The logit of row `n` against prototype `p`: the inner product divided by the temperature. -/
theorem logit_row (x2 : (⟨S65536x512, .f32⟩ : BufTy).Contents (Elt Ideal)) (x3 : (⟨S128x512, .f32⟩ : BufTy).Contents (Elt Ideal)) (n : Fin 65536) (p : Fin 128) :
    val_main_v7 (F := Ideal) x2 x3 (ix2 n p)
      = Ideal.div (Cert.Mrc.rowDot (fun d => x2 (ix2 n d)) (fun d => x3 (ix2 p d))) Cert.Mrc.temp := by
  rw [val_main_v7_apply, dot_row, val_main_v6_apply, val_main_cst_0_apply, Ideal.hostDivf_def, Ideal.ofBits_def]

/-- A maximum along axis 1 of any 65536 by 128 array, started from `-∞`: at row `n` it is the fold of `max` over the
    row's 128 entries. -/
theorem rowMax_host (y : (⟨S65536x128, .f32⟩ : BufTy).Contents (Elt Ideal)) (n : Fin 65536) :
    Host.reduce (FloatOps.maximumf (F := Ideal) (φ := .f32)) y (val_main_cst_1 (F := Ideal))
        reducesTo_S65536x128_S65536_d1 h_S_ (ix1 n)
      = (Finset.univ : Finset (Fin 128)).fold max Cert.Mrc.negInf fun p => y (ix2 n p) := by
  have h : S65536x128.Reduces [1] S65536 := by decide
  refine (Host.reduce_eq_fold_single (FloatOps.maximumf (F := Ideal) (φ := .f32)) y (val_main_cst_1 (F := Ideal))
    reducesTo_S65536x128_S65536_d1 h h_S_ (ix1 n)).trans ?_
  have hf : (y ∘ h.lift (ix1 n)) = fun p : Fin 128 => y (ix2 n p) :=
    funext fun k => congrArg y (Cert.LibColumns.lift_axis1 h n k)
  exact congrArg (fun f => Finset.fold max Cert.Mrc.negInf f (Finset.univ : Finset (Fin 128))) hf

/-- The maximum of row `n`'s logits. -/
theorem max_row (x2 : (⟨S65536x512, .f32⟩ : BufTy).Contents (Elt Ideal)) (x3 : (⟨S128x512, .f32⟩ : BufTy).Contents (Elt Ideal)) (n : Fin 65536) :
    val_main_v8 (F := Ideal) x2 x3 (ix1 n)
      = (Finset.univ : Finset (Fin 128)).fold max Cert.Mrc.negInf fun p => val_main_v7 (F := Ideal) x2 x3 (ix2 n p) := by
  unfold val_main_v8
  exact rowMax_host _ n

/-- A logit of row `n` less the row's maximum. -/
theorem sub_row (x2 : (⟨S65536x512, .f32⟩ : BufTy).Contents (Elt Ideal)) (x3 : (⟨S128x512, .f32⟩ : BufTy).Contents (Elt Ideal)) (n : Fin 65536) (p : Fin 128) :
    val_main_v11 (F := Ideal) x2 x3 (ix2 n p)
      = val_main_v7 (F := Ideal) x2 x3 (ix2 n p) - val_main_v8 (F := Ideal) x2 x3 (ix1 n) := by
  rw [val_main_v11_apply, val_main_v10_apply, idx_v10, val_main_v9_apply, idx_v9, Ideal.subf_def]

/-! ## The mask, and one row's term -/

/-- The mask at `(n, p)`: the label as a float times the prototype's weight. -/
theorem mask_row (x4 : (⟨S65536x128, .i32⟩ : BufTy).Contents (Elt Ideal)) (x5 : (⟨S128, .f32⟩ : BufTy).Contents (Elt Ideal)) (n : Fin 65536) (p : Fin 128) :
    val_main_v15 (F := Ideal) x4 x5 (ix2 n p) = FloatOps.sitofp (F := Ideal) .f32 (x4 (ix2 n p)) * x5 (ix1 p) := by
  rw [val_main_v15_apply, val_main_v12_apply, val_main_v14_apply, idx_v14, val_main_v13_apply, idx_v13, Ideal.mulf_def]

/-- The sum of row `n`'s unmasked exponentials. -/
theorem expSum_row (x2 : (⟨S65536x512, .f32⟩ : BufTy).Contents (Elt Ideal)) (x3 : (⟨S128x512, .f32⟩ : BufTy).Contents (Elt Ideal)) (x4 : (⟨S65536x128, .i32⟩ : BufTy).Contents (Elt Ideal)) (x5 : (⟨S128, .f32⟩ : BufTy).Contents (Elt Ideal)) (n : Fin 65536) :
    val_main_v20 (F := Ideal) x2 x3 x4 x5 (ix1 n)
      = ∑ p : Fin 128, Ideal.exp (val_main_v11 (F := Ideal) x2 x3 (ix2 n p))
          * (Cert.Mrc.oneW - val_main_v15 (F := Ideal) x4 x5 (ix2 n p)) := by
  refine (val_main_v20_apply x2 x3 x4 x5 (ix1 n)).trans ?_
  rw [val_main_cst_3_apply, Ideal.ofBits_def, Ideal.ofBits_zero_f32, zero_add]
  refine Finset.sum_congr rfl fun k _ => ?_
  rw [idx_v20, val_main_v19_apply, val_main_v16_apply, val_main_v18_apply, val_main_v17_apply, val_main_cst_2_apply,
    Ideal.mulf_def, Ideal.hostUnary_exp_def, Ideal.subf_def, Ideal.ofBits_def]

/-- The log-probability at `(n, p)`: the shifted logit less the logarithm of the row's sum. -/
theorem logp_row (x2 : (⟨S65536x512, .f32⟩ : BufTy).Contents (Elt Ideal)) (x3 : (⟨S128x512, .f32⟩ : BufTy).Contents (Elt Ideal)) (x4 : (⟨S65536x128, .i32⟩ : BufTy).Contents (Elt Ideal)) (x5 : (⟨S128, .f32⟩ : BufTy).Contents (Elt Ideal)) (n : Fin 65536) (p : Fin 128) :
    val_main_v24 (F := Ideal) x2 x3 x4 x5 (ix2 n p)
      = val_main_v11 (F := Ideal) x2 x3 (ix2 n p) - Ideal.log (val_main_v20 (F := Ideal) x2 x3 x4 x5 (ix1 n)) := by
  rw [val_main_v24_apply, val_main_v23_apply, idx_v23, val_main_v22_apply, val_main_v21_apply, idx_v21,
    Ideal.subf_def, Ideal.hostUnary_log_def]

/-- Row `n`'s term, from its logits and its mask row. -/
theorem term_row (x2 : (⟨S65536x512, .f32⟩ : BufTy).Contents (Elt Ideal)) (x3 : (⟨S128x512, .f32⟩ : BufTy).Contents (Elt Ideal)) (x4 : (⟨S65536x128, .i32⟩ : BufTy).Contents (Elt Ideal)) (x5 : (⟨S128, .f32⟩ : BufTy).Contents (Elt Ideal)) (n : Fin 65536) :
    val_main_v26 (F := Ideal) x2 x3 x4 x5 (ix1 n)
      = Cert.Mrc.rowTerm (fun p => val_main_v7 (F := Ideal) x2 x3 (ix2 n p))
          (fun p => val_main_v15 (F := Ideal) x4 x5 (ix2 n p)) := by
  refine (val_main_v26_apply x2 x3 x4 x5 (ix1 n)).trans ?_
  rw [val_main_cst_4_apply, Ideal.ofBits_def, Ideal.ofBits_zero_f32, zero_add]
  unfold Cert.Mrc.rowTerm
  refine Finset.sum_congr rfl fun k _ => ?_
  rw [idx_v26, val_main_v25_apply, Ideal.mulf_def]
  have hs : ∀ p : Fin 128, val_main_v11 (F := Ideal) x2 x3 (ix2 n p)
      = val_main_v7 (F := Ideal) x2 x3 (ix2 n p)
        - (Finset.univ : Finset (Fin 128)).fold max Cert.Mrc.negInf fun p => val_main_v7 (F := Ideal) x2 x3 (ix2 n p) :=
    fun p => by rw [sub_row, max_row]
  rw [logp_row, expSum_row]
  simp only [hs]

/-- Row `n`'s term is the row loss of the feature row, the prototypes and the mask row, the logits being the inner
    products divided by the temperature. -/
theorem rowLoss_row (x2 : (⟨S65536x512, .f32⟩ : BufTy).Contents (Elt Ideal)) (x3 : (⟨S128x512, .f32⟩ : BufTy).Contents (Elt Ideal)) (x4 : (⟨S65536x128, .i32⟩ : BufTy).Contents (Elt Ideal)) (x5 : (⟨S128, .f32⟩ : BufTy).Contents (Elt Ideal)) (n : Fin 65536) :
    val_main_v26 (F := Ideal) x2 x3 x4 x5 (ix1 n)
      = Cert.Mrc.rowLoss (fun z => Ideal.div z Cert.Mrc.temp) (fun d => x2 (ix2 n d)) (fun p d => x3 (ix2 p d))
          (fun p => FloatOps.sitofp (F := Ideal) .f32 (x4 (ix2 n p)) * x5 (ix1 p)) := by
  refine (term_row x2 x3 x4 x5 n).trans ?_
  unfold Cert.Mrc.rowLoss
  have hg : (fun p : Fin 128 => val_main_v7 (F := Ideal) x2 x3 (ix2 n p))
      = fun p => Ideal.div (Cert.Mrc.rowDot (fun d => x2 (ix2 n d)) (fun d => x3 (ix2 p d))) Cert.Mrc.temp :=
    funext fun p => logit_row x2 x3 n p
  have hk : (fun p : Fin 128 => val_main_v15 (F := Ideal) x4 x5 (ix2 n p))
      = fun p => FloatOps.sitofp (F := Ideal) .f32 (x4 (ix2 n p)) * x5 (ix1 p) :=
    funext fun p => mask_row x4 x5 n p
  rw [hg, hk]

/-! ## The total over the rows -/

/-- The indices of a one-axis array of 65536 entries are its 65536 coordinates. -/
def rowEquiv : S65536.Idx ≃ Fin 65536 where
  toFun j := j 0
  invFun n := ix1 n
  left_inv j := (eq_ix1 j).symm
  right_inv _ := rfl

/-- The sum over all rows of `-T` times the row's term; the reduction starts from the zero word. -/
theorem total_eq (x2 : (⟨S65536x512, .f32⟩ : BufTy).Contents (Elt Ideal)) (x3 : (⟨S128x512, .f32⟩ : BufTy).Contents (Elt Ideal)) (x4 : (⟨S65536x128, .i32⟩ : BufTy).Contents (Elt Ideal)) (x5 : (⟨S128, .f32⟩ : BufTy).Contents (Elt Ideal)) (i : S_.Idx) :
    val_main_v29 (F := Ideal) x2 x3 x4 x5 i
      = ∑ n : Fin 65536, Cert.Mrc.negTemp * val_main_v26 (F := Ideal) x2 x3 x4 x5 (ix1 n) := by
  refine (val_main_v29_apply x2 x3 x4 x5 i).trans ?_
  rw [val_main_cst_6_apply, Ideal.ofBits_def, Ideal.ofBits_zero_f32, zero_add]
  refine (Fintype.sum_equiv rowEquiv.symm _ _ fun n => ?_).symm
  show _ = val_main_v28 (F := Ideal) x2 x3 x4 x5 (ix1 n)
  rw [val_main_v28_apply, val_main_v27_apply, val_main_cst_5_apply, Ideal.mulf_def, Ideal.ofBits_def]

/-- The reference's result, at its one index, is the loss of the feature rows, the prototypes, and the mask
    (label converted to a float, times the prototype's weight). -/
theorem result_eq (x2 : (⟨S65536x512, .f32⟩ : BufTy).Contents (Elt Ideal)) (x3 : (⟨S128x512, .f32⟩ : BufTy).Contents (Elt Ideal))
    (x4 : (⟨S65536x128, .i32⟩ : BufTy).Contents (Elt Ideal)) (x5 : (⟨S128, .f32⟩ : BufTy).Contents (Elt Ideal)) (i : S_.Idx) :
    Cert.ReferenceIdeal.Read.val_main_v31 (F := Ideal) x2 x3 x4 x5 i
      = Cert.Mrc.loss (fun n d => x2 (ix2 n d)) (fun p d => x3 (ix2 p d))
          (fun n p => FloatOps.sitofp (F := Ideal) .f32 (x4 (ix2 n p)) * x5 (ix1 p)) := by
  rw [val_main_v31_apply, val_main_cst_8_apply, val_main_v30_apply, val_main_cst_7_apply, Ideal.mulf_def,
    Ideal.hostDivf_def]
  simp only [Ideal.ofBits_def]
  rw [show Ideal.ofBits .f32 0x3F800000#32 = (1 : EReal) from Cert.Mrc.oneW_eq, one_mul, total_eq]
  unfold Cert.Mrc.loss
  refine congrArg (fun s => Ideal.div s Cert.Mrc.rows) (Finset.sum_congr rfl fun n _ => ?_)
  exact congrArg (Cert.Mrc.negTemp * ·) (rowLoss_row x2 x3 x4 x5 n)

end Cert.ReferenceIdeal.RefRows

end
-- ==== Proof.lean ====
/-
  A masked contrastive loss over 65536 samples, computed two ways, is one extended real.

  Each sample's 512 features are scaled to unit length (with the guard `max (‖x‖) ε`), multiplied into 128 prototypes,
  divided by the temperature `T`; the row maximum is subtracted, the unmasked exponentials summed, and the masked
  log-probabilities added up; the loss is `-T` times the mean of these row terms (`Proof/RowLoss.lean`).

  The kernel streams the samples in 32 blocks of 2048 rows, keeps a running sum in a one-word scratch that it resets at
  the first block, and writes the sum out after the last; the host divides by the sample count. The reference computes
  all rows at once. They differ in three ways, none of which changes the value over the extended reals:
    * the kernel multiplies the logits by the reciprocal `1 / T`, which is named its exact rational value, where the
      reference divides by `T`: division by a non-zero real is multiplication by its reciprocal, at the infinities too;
    * the kernel adds the rows block by block and the reference all at once: addition is commutative and associative;
    * the kernel's matrix product runs on narrower floats: a change of float format is the identity on exact values.

  `Proof/KernelValue.lean` reads the kernel's run as that loss of the argument arrays, `Proof/RefRows.lean` the
  reference's; the two frames of the kernel programs are the generated ones, the reference's frame is its run.
-/
import proofs.«180132_j89678917140921_1_alg».proof.Defs
import proofs.«180132_j89678917140921_1_alg».proof.Proof.Gen.Kernel
import proofs.«180132_j89678917140921_1_alg».proof.Proof.Gen.Kernel.Frame
import proofs.«180132_j89678917140921_1_alg».proof.Proof.Gen.KernelIdeal
import proofs.«180132_j89678917140921_1_alg».proof.Proof.Gen.KernelIdeal.Frame
import proofs.«180132_j89678917140921_1_alg».proof.Proof.Gen.ReferenceIdeal
import proofs.«180132_j89678917140921_1_alg».proof.Proof.Gen.ReferenceIdeal.Run
import proofs.«180132_j89678917140921_1_alg».proof.Proof.Gen.ReferenceIdeal.Read
import proofs.«180132_j89678917140921_1_alg».proof.Proof.Gen.Pre_finite_inputs
import proofs.«180132_j89678917140921_1_alg».proof.Proof.KernelValue
import proofs.«180132_j89678917140921_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the scale `10.0` is named `1 / T` for the f32 word `T` of the reference's
    divisor, `134217728 / 13421773`. -/
theorem preserves : Cert.preserves_Kernel_KernelIdeal :=
  IdealRules.named_const.statement Cert.KernelIdeal.κ "inv_temperature" .f32 0x41200000#32 ((134217728 / 13421773 : ℝ) : EReal) rfl

/-- Both programs end at the loss of the argument arrays, which agree. -/
theorem algebraic : Cert.algebraic_KernelIdeal_ReferenceIdeal := by
  intro m ρ m' ρ' _ hagree
  refine ⟨fun c => fun _ => Cert.Mrc.loss (Cert.KernelIdeal.Total.X m c) (Cert.KernelIdeal.Total.P m c) (Cert.KernelIdeal.Total.K m c),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq]
  funext i
  rw [Cert.ReferenceIdeal.RefRows.result_eq, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
